-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S32x8192x128 : Shape := ⟨3, ![32, 8192, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S32x8192x128 : S_.BroadcastsInDim S32x8192x128 (![] : Fin 0 → Fin S32x8192x128.rank)
  reducesTo_S32x8192x128_S_d0_1_2 : S32x8192x128.ReducesTo [0, 1, 2] S_

variable [Facts]

def fn {F : FTy → Type} [FloatOps F] (main_arg0 : FVec F S32x128 .f32) (main_arg1 : FVec F S32x8192x128 .f32) (main_arg2 : FVec F S32x8192x128 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S32x8192x128 .f32 := Host.absf main_arg1
  let main_cst_0 : FVec F S_ .f32 := constant S_ .f32 0x7F800000#32
  let main_v5 : FVec F S32x8192x128 .f32 := broadcastInDim S32x8192x128 ![] bcast_S_S32x8192x128 main_cst_0
  let main_v6 : IVec S32x8192x128 1 := cmpf .olt main_v4 main_v5
  let main_c_1 : IVec S_ 1 := constantI S_ 1 1#1
  let main_v7 : IVec S_ 1 := (fun x v => Host.reduce IntOp.andi x v reducesTo_S32x8192x128_S_d0_1_2 h_S_) main_v6 main_c_1
  let main_v8 : IVec S_ 1 := andi main_v3 main_v7
  let main_v9 : FVec F S32x8192x128 .f32 := Host.absf main_arg2
  let main_cst_2 : FVec F S_ .f32 := constant S_ .f32 0x7F800000#32
  let main_v10 : FVec F S32x8192x128 .f32 := broadcastInDim S32x8192x128 ![] bcast_S_S32x8192x128 main_cst_2
  let main_v11 : IVec S32x8192x128 1 := cmpf .olt main_v9 main_v10
  let main_c_3 : IVec S_ 1 := constantI S_ 1 1#1
  let main_v12 : IVec S_ 1 := (fun x v => Host.reduce IntOp.andi x v reducesTo_S32x8192x128_S_d0_1_2 h_S_) main_v11 main_c_3
  let main_v13 : IVec S_ 1 := andi main_v8 main_v12
  main_v13
-- ==== Kernel.lean ====
abbrev S32x128 : Shape := ⟨2, ![32, 128]⟩
abbrev S32x8192x128 : Shape := ⟨3, ![32, 8192, 128]⟩
abbrev S32x32x128 : Shape := ⟨3, ![32, 32, 128]⟩
abbrev S2x8192x128 : Shape := ⟨3, ![2, 8192, 128]⟩
abbrev S2x32x128 : Shape := ⟨3, ![2, 32, 128]⟩
abbrev S1x8192x128 : Shape := ⟨3, ![1, 8192, 128]⟩
abbrev S8192x128 : Shape := ⟨2, ![8192, 128]⟩
abbrev S32x8192 : Shape := ⟨2, ![32, 8192]⟩
abbrev S32 : Shape := ⟨1, ![32]⟩
abbrev S32x1 : Shape := ⟨2, ![32, 1]⟩
abbrev S1x32x128 : Shape := ⟨3, ![1, 32, 128]⟩

abbrev nBuf : Space → Nat
  | .hbm => 4
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x8192x128, .f32⟩
  | .hbm, ⟨2, _⟩ => ⟨S32x8192x128, .f32⟩
  | .hbm, ⟨3, _⟩ => ⟨S32x32x128, .f32⟩
  | .local _ .vmem, ⟨0, _⟩ => ⟨S32x128, .f32⟩
  | .local _ .vmem, ⟨1, _⟩ => ⟨S2x8192x128, .f32⟩
  | .local _ .vmem, ⟨2, _⟩ => ⟨S2x8192x128, .f32⟩
  | .local _ .vmem, ⟨3, _⟩ => ⟨S2x8192x128, .f32⟩
  | .local _ .vmem, ⟨4, _⟩ => ⟨S2x8192x128, .f32⟩
  | .local _ .vmem, ⟨5, _⟩ => ⟨S2x32x128, .f32⟩
  | .local _ .vmem, ⟨6, _⟩ => ⟨S2x32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x128_S32x128_0_0 : ∀ a, (![0, 0] : Fin 2 → Nat) a + S32x128.size a ≤ S32x128.size a
  h_S32x128 : 0 < S32x128.numel
  inb_S2x8192x128_S1x8192x128_0_0_0 : ∀ a, (![0, 0, 0] : Fin 3 → Nat) a + S1x8192x128.size a ≤ S2x8192x128.size a
  h_S1x8192x128 : 0 < S1x8192x128.numel
  shapeCasts_S1x8192x128_S8192x128 : S1x8192x128.ShapeCasts S8192x128
  reduces_S32x8192_S32 : S32x8192.Reduces [1] S32
  shapeCasts_S32_S32x1 : S32.ShapeCasts S32x1
  broadcasts_S32x1_S32x8192 : S32x1.Broadcasts S32x8192
  inb_S2x32x128_S1x32x128_0_0_0 : ∀ a, (![0, 0, 0] : Fin 3 → Nat) a + S1x32x128.size a ≤ S2x32x128.size a
  h_S1x32x128 : 0 < S1x32x128.numel
  shapeCasts_S1x32x128_S32x128 : S1x32x128.ShapeCasts S32x128
  shapeCasts_S32x128_S1x32x128 : S32x128.ShapeCasts S1x32x128
  inb_S2x8192x128_S1x8192x128_1_0_0 : ∀ a, (![1, 0, 0] : Fin 3 → Nat) a + S1x8192x128.size a ≤ S2x8192x128.size a
  inb_S2x32x128_S1x32x128_1_0_0 : ∀ a, (![1, 0, 0] : Fin 3 → Nat) a + S1x32x128.size a ≤ S2x32x128.size a
  dot_S32x128_S8192x128_S32x8192_1_1_0_0_n_n_wf : DotDims.WF S32x128 S8192x128 S32x8192 [1] [1] [0] [0] [] []
  dot_S32x8192_S8192x128_S32x128_1_0_0_1_n_n_wf : DotDims.WF S32x8192 S8192x128 S32x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8192x128.size a ≤ S32x8192x128.size a
  hwx0_1 : ∀ i : grid0.Coords, EltTy.bits .f32 = 32 ∨ (Rect.block (s := S32x8192x128) S2x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8192x128.size a ≤ S32x8192x128.size a
  hwx0_2 : ∀ i : grid0.Coords, EltTy.bits .f32 = 32 ∨ (Rect.block (s := S32x8192x128) S2x8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32x128.size a ≤ S32x32x128.size a
  hwx0_3 : ∀ i : grid0.Coords, EltTy.bits .f32 = 32 ∨ (Rect.block (s := S32x32x128) S2x32x128.size (cc0_transform_3 i) (hinb0_3 i)).WholeWords (EltTy.packing .f32)

variable [Facts₀]

def dot_S32x128_S8192x128_S32x8192_1_1_0_0_n_n : DotDims S32x128 S8192x128 S32x8192 where
  lhsContracting := [1]
  rhsContracting := [1]
  lhsNonContracting := [0]
  rhsNonContracting := [0]
  lhsBatch := []
  rhsBatch := []
  wf := dot_S32x128_S8192x128_S32x8192_1_1_0_0_n_n_wf
def dot_S32x8192_S8192x128_S32x128_1_0_0_1_n_n : DotDims S32x8192 S8192x128 S32x128 where
  lhsContracting := [1]
  rhsContracting := [0]
  lhsNonContracting := [0]
  rhsNonContracting := [1]
  lhsBatch := []
  rhsBatch := []
  wf := dot_S32x8192_S8192x128_S32x128_1_0_0_1_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128 : Shape := ⟨2, ![32, 128]⟩
abbrev S32x8192x128 : Shape := ⟨3, ![32, 8192, 128]⟩
abbrev S32x8192x32 : Shape := ⟨3, ![32, 8192, 32]⟩
abbrev S32x32x8192 : Shape := ⟨3, ![32, 32, 8192]⟩
abbrev S_ : Shape := ⟨0, ![]⟩
abbrev S32x32 : Shape := ⟨2, ![32, 32]⟩
abbrev S32x32x1 : Shape := ⟨3, ![32, 32, 1]⟩
abbrev S32x32x128 : Shape := ⟨3, ![32, 32, 128]⟩

abbrev nBuf : Space → Nat
  | .hbm => 23
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x8192x128, .f32⟩
  | .hbm, ⟨2, _⟩ => ⟨S32x8192x128, .f32⟩
  | .hbm, ⟨3, _⟩ => ⟨S32x8192x32, .f32⟩
  | .hbm, ⟨4, _⟩ => ⟨S32x32x8192, .f32⟩
  | .hbm, ⟨5, _⟩ => ⟨S_, .f32⟩
  | .hbm, ⟨6, _⟩ => ⟨S32x32x8192, .f32⟩
  | .hbm, ⟨7, _⟩ => ⟨S32x32x8192, .f32⟩
  | .hbm, ⟨8, _⟩ => ⟨S_, .f32⟩
  | .hbm, ⟨9, _⟩ => ⟨S32x32, .f32⟩
  | .hbm, ⟨10, _⟩ => ⟨S_, .f32⟩
  | .hbm, ⟨11, _⟩ => ⟨S32x32, .f32⟩
  | .hbm, ⟨12, _⟩ => ⟨S32x32, .f32⟩
  | .hbm, ⟨13, _⟩ => ⟨S32x32x1, .f32⟩
  | .hbm, ⟨14, _⟩ => ⟨S32x32x8192, .f32⟩
  | .hbm, ⟨15, _⟩ => ⟨S32x32x8192, .f32⟩
  | .hbm, ⟨16, _⟩ => ⟨S32x32x8192, .f32⟩
  | .hbm, ⟨17, _⟩ => ⟨S_, .f32⟩
  | .hbm, ⟨18, _⟩ => ⟨S32x32, .f32⟩
  | .hbm, ⟨19, _⟩ => ⟨S32x32x1, .f32⟩
  | .hbm, ⟨20, _⟩ => ⟨S32x32x8192, .f32⟩
  | .hbm, ⟨21, _⟩ => ⟨S32x32x8192, .f32⟩
  | .hbm, ⟨22, _⟩ => ⟨S32x32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S32x8192x32_S32x32x8192_0_2_1 : S32x8192x32.Transposes [0, 2, 1] S32x32x8192
  bcast_S_S32x32x8192 : S_.BroadcastsInDim S32x32x8192 (![] : Fin 0 → Fin S32x32x8192.rank)
  reducesTo_S32x32x8192_S32x32_d2 : S32x32x8192.ReducesTo [2] S32x32
  h_S_ : 0 < S_.numel
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x8192_0_1_2 : S32x32x1.BroadcastsInDim S32x32x8192 (![0, 1, 2] : Fin 3 → Fin S32x32x8192.rank)
  dot_S32x8192x128_S32x128_S32x8192x32_2_1_01_0_n_n_wf : DotDims.WF S32x8192x128 S32x128 S32x8192x32 [2] [1] [0, 1] [0] [] []
  dot_S32x32x8192_S32x8192x128_S32x32x128_2_1_1_2_0_0_wf : DotDims.WF S32x32x8192 S32x8192x128 S32x32x128 [2] [1] [1] [2] [0] [0]

variable [Facts₀]

def dot_S32x8192x128_S32x128_S32x8192x32_2_1_01_0_n_n : DotDims S32x8192x128 S32x128 S32x8192x32 where
  lhsContracting := [2]
  rhsContracting := [1]
  lhsNonContracting := [0, 1]
  rhsNonContracting := [0]
  lhsBatch := []
  rhsBatch := []
  wf := dot_S32x8192x128_S32x128_S32x8192x32_2_1_01_0_n_n_wf
def dot_S32x32x8192_S32x8192x128_S32x32x128_2_1_1_2_0_0 : DotDims S32x32x8192 S32x8192x128 S32x32x128 where
  lhsContracting := [2]
  rhsContracting := [1]
  lhsNonContracting := [1]
  rhsNonContracting := [2]
  lhsBatch := [0]
  rhsBatch := [0]
  wf := dot_S32x32x8192_S32x8192x128_S32x32x128_2_1_1_2_0_0_wf

class Facts : Prop extends Facts₀ where

variable [Facts]
-- ==== Proof.Softmax.lean ====
/-
  Scaled dot-product attention with a row softmax, as one function of the three argument arrays.

  For a batch index `b`, a query row `a` and a value column `v` the result is
      ∑ d, softmax_d (score b a ·) d · V[b, d, v]
  where `score b a d` is the inner product over `k` of `K[b, d, k]` with `q[a, k]`, times the scale `s`, and the
  softmax of a row is `exp (x d - max x) / ∑ d', exp (x d' - max x)`, the maximum taken from -∞.

  Two arrangements of the score occur: the scale applied to the finished inner product, `(∑ k, K k · q k) · s`, and
  the scale folded into the query first, `∑ k, (q k · s) · K k`. On the extended reals the two agree when every
  factor is a real number (distributivity of `·` over a finite sum fails at the infinities), which is what
  `score_eq` says; everything after the score is the same function of it.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale `s`: the value of the single-precision word nearest to `1/√128`. -/
abbrev scale : EReal := Ideal.ofBits .f32 0x3DB504F3#32

/-- The scale is a real number (a normal binary fraction, neither infinite nor a NaN pattern). -/
theorem scale_real : ∃ r : ℝ, scale = (r : EReal) := by
  refine ⟨?r, ?_⟩
  case r => exact ((if ((0x3DB504F3#32 : BitVec 32).extractLsb' (8 + 23) 1 == 1#1) = true then (-1 : ℝ) else 1)
    * ((2 ^ 23 + ((0x3DB504F3#32 : BitVec 32).extractLsb' 0 23).toNat : Nat) : ℝ)
    * (2 : ℝ) ^ ((((0x3DB504F3#32 : BitVec 32).extractLsb' 23 8).toNat : Int) - (2 ^ (8 - 1) - 1) - (23 : Nat)))
  show Ideal.ieee 8 23 (0x3DB504F3#32 : BitVec 32) = _
  unfold Ideal.ieee
  simp only []
  rw [if_neg (by decide), if_neg (by decide)]

/-- The word of -∞ denotes the bottom of the extended reals, so a maximum against it is the other operand. -/
theorem max_negInf (y : EReal) : max (Ideal.ofBits .f32 0xFF800000#32) y = y := by
  simp [Ideal.ofBits, Ideal.ieee]

/-- The maximum of a row, taken from -∞. -/
def rowMax {n : Nat} (x : Fin n → EReal) : EReal :=
  (Finset.univ : Finset (Fin n)).fold max (Ideal.ofBits .f32 0xFF800000#32) x

/-- A row of scores `x` turned into softmax weights and contracted with a column `v`:
    `∑ d, (exp (x d - max x) / ∑ d', exp (x d' - max x)) · v d`. -/
def softmaxDot {n : Nat} (x v : Fin n → EReal) : EReal :=
  ∑ d : Fin n, Ideal.div (Ideal.exp (x d - rowMax x)) (∑ d' : Fin n, Ideal.exp (x d' - rowMax x)) * v d

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LAW that joins the two arrangements of a score: for real `q`, `k` and `s`,
    `∑ i, (q i · s) · k i = (∑ i, k i · q i) · s`. -/
theorem score_eq {n : Nat} (q k : Fin n → EReal) (s : EReal) (hq : ∀ i, ∃ r : ℝ, q i = (r : EReal))
    (hk : ∀ i, ∃ r : ℝ, k i = (r : EReal)) (hs : ∃ r : ℝ, s = (r : EReal)) :
    ∑ i, (q i * s) * k i = (∑ i, k i * q i) * s := by
  choose qr hqr using hq
  choose kr hkr using hk
  obtain ⟨sr, rfl⟩ := hs
  simp only [hqr, hkr, ← EReal.coe_mul, coe_sum]
  refine congrArg _ ?_
  rw [Finset.sum_mul]
  exact Finset.sum_congr rfl fun i _ => by ring

/-- The score with the scale applied to the finished inner product. -/
def scoreAfter (q : (⟨2, ![32, 128]⟩ : Shape).Idx → EReal) (K : (⟨3, ![32, 8192, 128]⟩ : Shape).Idx → EReal)
    (b a : Fin 32) (d : Fin 8192) : EReal :=
  (∑ k : Fin 128, K (ix3 b d k) * q (ix2 a k)) * scale

/-- The score with the scale folded into the query first. -/
def scoreBefore (q : (⟨2, ![32, 128]⟩ : Shape).Idx → EReal) (K : (⟨3, ![32, 8192, 128]⟩ : Shape).Idx → EReal)
    (b a : Fin 32) (d : Fin 8192) : EReal :=
  ∑ k : Fin 128, (q (ix2 a k) * scale) * K (ix3 b d k)

/-- Attention as one function of the argument arrays, index by index, scores scaled after the inner product. -/
def attn (q : (⟨2, ![32, 128]⟩ : Shape).Idx → EReal) (K V : (⟨3, ![32, 8192, 128]⟩ : Shape).Idx → EReal) :
    (⟨3, ![32, 32, 128]⟩ : Shape).Idx → EReal := fun i =>
  softmaxDot (scoreAfter q K (i 0) (i 1)) (fun d : Fin 8192 => V (ix3 (i 0) d (i 2)))

/-- The same with the scale folded into the query. -/
def attnFolded (q : (⟨2, ![32, 128]⟩ : Shape).Idx → EReal) (K V : (⟨3, ![32, 8192, 128]⟩ : Shape).Idx → EReal) :
    (⟨3, ![32, 32, 128]⟩ : Shape).Idx → EReal := fun i =>
  softmaxDot (scoreBefore q K (i 0) (i 1)) (fun d : Fin 8192 => V (ix3 (i 0) d (i 2)))

/-- On real queries and keys the two are one function. -/
theorem attnFolded_eq (q : (⟨2, ![32, 128]⟩ : Shape).Idx → EReal) (K V : (⟨3, ![32, 8192, 128]⟩ : Shape).Idx → EReal)
    (hq : ∀ j, ∃ r : ℝ, q j = (r : EReal)) (hK : ∀ j, ∃ r : ℝ, K j = (r : EReal)) :
    attnFolded q K V = attn q K V := by
  funext i
  unfold attnFolded attn
  refine congrArg (fun x => softmaxDot x _) (funext fun d => ?_)
  exact score_eq (fun k => q (ix2 (i 1) k)) (fun k => K (ix3 (i 0) d k)) scale (fun k => hq _) (fun k => hK _) scale_real

end Cert.Attn

end
-- ==== Proof.Finite.lean ====
/-
  Under the precondition every entry of the three argument arrays is a real number.

  The precondition is the conjunction of three tests, one per array: every entry's absolute value is below +∞. On the
  extended reals `max x (-x) < ⊤` excludes both infinities, so `x` is (the image of) a real.
-/
import proofs.«411201_j26036091748419_3_alg».proof.Pre_finite_inputs
import proofs.«411201_j26036091748419_3_alg».proof.Proof.Gen.Pre_finite_inputs
import Idealize.ShloMosaic.Lib.ReduceAll
import Idealize.ShloMosaic.PureOps.Ideal
import Idealize.ShloMosaic.Lib.ValueIdx

noncomputable section

namespace Cert.FiniteInputs

open Idealize.ShloMosaic Cert.Pre_finite_inputs Cert.Pre_finite_inputs.Gen

/-- The rank-0 shape has one index. -/
instance : Subsingleton S_.Idx := ⟨fun a b => funext fun d => d.elim0⟩

/-- An extended real whose absolute value compares below the word of +∞ is a real. -/
theorem real_of_abs_lt (x : EReal) (h : Ideal.cmp .olt (max x (-x)) (Ideal.ofBits .f32 0x7F800000#32) = 1#1) :
    ∃ r : ℝ, x = (r : EReal) := by
  induction x using EReal.rec with
  | bot => exfalso; revert h; simp [Ideal.cmp, Ideal.ofBits, Ideal.ieee]
  | top => exfalso; revert h; simp [Ideal.cmp, Ideal.ofBits, Ideal.ieee]
  | coe r => exact ⟨r, rfl⟩

/-- The precondition, all ones, gives: every entry of each argument array is a real. -/
theorem of_pre (a0 : FVec Ideal S32x128 .f32) (a1 a2 : FVec Ideal S32x8192x128 .f32)
    (h : fn (F := Ideal) a0 a1 a2 = fun _ => 1#1) :
    (∀ j, ∃ r : ℝ, a0 j = (r : EReal)) ∧ (∀ j, ∃ r : ℝ, a1 j = (r : EReal)) ∧ (∀ j, ∃ r : ℝ, a2 j = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun j => ?_, fun j => ?_, fun j => ?_⟩
  · exact real_of_abs_lt (a0 j) (Host.reduce_andi_all _ _ _ _ _ h0' j)
  · exact real_of_abs_lt (a1 j) (Host.reduce_andi_all _ _ _ _ _ h1 j)
  · exact real_of_abs_lt (a2 j) (Host.reduce_andi_all _ _ _ _ _ h2 j)

end Cert.FiniteInputs

end
-- ==== Proof.RefValue.lean ====
/-
  The reference computes `Cert.Attn.attn` of its arguments.

  Its stages, read at explicit coordinates (batch `b`, query row `a`, key position `d`, value column `v`): the first
  contraction, transposed and scaled, is the score `(∑ k, K[b,d,k] · q[a,k]) · s`; the maximum over `d` from -∞ (and one
  more maximum against -∞, which changes nothing) is the row's maximum; the exponentials of the differences and
  their sum from zero give the softmax weights; the last contraction over `d` with `V[b,d,v]` is the result.
-/
import proofs.«411201_j26036091748419_3_alg».proof.Proof.Gen.ReferenceIdeal.Read
import proofs.«411201_j26036091748419_3_alg».proof.Proof.Softmax
import Idealize.ShloMosaic.PureOps.Reduce

noncomputable section

namespace Cert.RefAttn

open Cert.ReferenceIdeal Cert.ReferenceIdeal.Gen Cert.ReferenceIdeal.Read Idealize.ShloMosaic Idealize.ShloMosaic.ValueIdx
open Cert.Attn

variable (x0 : (⟨S32x128, .f32⟩ : BufTy).Contents (Elt Ideal)) (x1 x2 : (⟨S32x8192x128, .f32⟩ : BufTy).Contents (Elt Ideal))

/-- The scaled, transposed first contraction at (b, a, d) is the score. -/
theorem score_at (b a : Fin 32) (d : Fin 8192) : val_main_v3 (F := Ideal) x0 x1 (ix3 b a d) = scoreAfter x0 x1 b a d := by
  rw [val_main_v3_apply, val_main_v1_apply, val_main_v0_apply, val_main_v2_apply, val_main_cst_apply]
  have el : ∀ k : Fin 128, lidx_main_v0 (idx_main_v1 (ix3 b a d)) k = ix3 b d k := fun k =>
    funext fun c => match c with | ⟨0, _⟩ => rfl | ⟨1, _⟩ => rfl | ⟨2, _⟩ => rfl
  have er : ∀ k : Fin 128, ridx_main_v0 (idx_main_v1 (ix3 b a d)) k = ix2 a k := fun k =>
    funext fun c => match c with | ⟨0, _⟩ => rfl | ⟨1, _⟩ => rfl
  simp only [el, er]
  rfl

/-- The row maximum: the reduction over `d` from -∞. -/
theorem max_at (b a : Fin 32) : val_main_v4 (F := Ideal) x0 x1 (ix2 b a) = rowMax (scoreAfter x0 x1 b a) := by
  unfold val_main_v4
  have hr : S32x32x8192.Reduces [2] S32x32 := by decide
  refine (Host.reduce_eq_fold_single (α := Ideal .f32) (FloatOps.maximumf (F := Ideal) (φ := .f32))
    (val_main_v3 (F := Ideal) x0 x1) (val_main_cst_0 (F := Ideal))
    reducesTo_S32x32x8192_S32x32_d2 hr h_S_ (ix2 b a)).trans ?_
  have hl : ∀ d : Fin 8192, hr.lift (ix2 b a) d = ix3 b a d := fun d =>
    funext fun c => match c with | ⟨0, _⟩ => rfl | ⟨1, _⟩ => rfl | ⟨2, _⟩ => rfl
  have hf : (val_main_v3 (F := Ideal) x0 x1 ∘ hr.lift (ix2 b a)) = scoreAfter x0 x1 b a :=
    funext fun d => (congrArg (val_main_v3 (F := Ideal) x0 x1) (hl d)).trans (score_at x0 x1 b a d)
  rw [hf]
  rfl

/-- One more maximum against -∞ leaves it. -/
theorem max6_at (b a : Fin 32) : val_main_v6 (F := Ideal) x0 x1 (ix2 b a) = rowMax (scoreAfter x0 x1 b a) := by
  rw [val_main_v6_apply, val_main_v5_apply, val_main_cst_1_apply, max_at]
  exact max_negInf _

/-- Broadcast back along `d`. -/
theorem max8_at (b a : Fin 32) (d : Fin 8192) : val_main_v8 (F := Ideal) x0 x1 (ix3 b a d) = rowMax (scoreAfter x0 x1 b a) := by
  rw [val_main_v8_apply, val_main_v7_apply, ← max6_at]
  exact congrArg _ (funext fun c => match c with | ⟨0, _⟩ => rfl | ⟨1, _⟩ => rfl)

/-- The exponential of the score less the row maximum. -/
theorem exp_at (b a : Fin 32) (d : Fin 8192) :
    val_main_v10 (F := Ideal) x0 x1 (ix3 b a d) = Ideal.exp (scoreAfter x0 x1 b a d - rowMax (scoreAfter x0 x1 b a)) := by
  rw [val_main_v10_apply, val_main_v9_apply, score_at, max8_at]
  rfl

/-- Their sum over `d`, from zero. -/
theorem sum_at (b a : Fin 32) :
    val_main_v11 (F := Ideal) x0 x1 (ix2 b a) = ∑ d : Fin 8192, Ideal.exp (scoreAfter x0 x1 b a d - rowMax (scoreAfter x0 x1 b a)) := by
  rw [val_main_v11_apply, val_main_cst_2_apply]
  show Ideal.ofBits .f32 0x00000000#32 + _ = _
  rw [Ideal.ofBits_zero_f32, zero_add]
  refine Finset.sum_congr rfl fun d _ => ?_
  rw [← exp_at]
  exact congrArg _ (funext fun c => match c with | ⟨0, _⟩ => rfl | ⟨1, _⟩ => rfl | ⟨2, _⟩ => rfl)

/-- Broadcast back along `d`. -/
theorem sum13_at (b a : Fin 32) (d : Fin 8192) :
    val_main_v13 (F := Ideal) x0 x1 (ix3 b a d) = ∑ d' : Fin 8192, Ideal.exp (scoreAfter x0 x1 b a d' - rowMax (scoreAfter x0 x1 b a)) := by
  rw [val_main_v13_apply, val_main_v12_apply, ← sum_at]
  exact congrArg _ (funext fun c => match c with | ⟨0, _⟩ => rfl | ⟨1, _⟩ => rfl)

/-- The softmax weight at (b, a, d). -/
theorem weight_at (b a : Fin 32) (d : Fin 8192) :
    val_main_v14 (F := Ideal) x0 x1 (ix3 b a d)
      = Ideal.div (Ideal.exp (scoreAfter x0 x1 b a d - rowMax (scoreAfter x0 x1 b a)))
          (∑ d' : Fin 8192, Ideal.exp (scoreAfter x0 x1 b a d' - rowMax (scoreAfter x0 x1 b a))) := by
  rw [val_main_v14_apply, exp_at, sum13_at]
  rfl

/-- THE REFERENCE'S RESULT is attention of its arguments. -/
theorem result_eq : val_main_v15 (F := Ideal) x0 x1 x2 = attn x0 x1 x2 := by
  funext i
  obtain ⟨b, a, v, rfl⟩ : ∃ (b a : Fin 32) (v : Fin 128), i = ix3 b a v := ⟨i 0, i 1, i 2, eq_ix3 i⟩
  rw [val_main_v15_apply]
  unfold attn softmaxDot
  refine Finset.sum_congr rfl fun d _ => ?_
  have el : lidx_main_v15 (ix3 b a v) d = ix3 b a d :=
    funext fun c => match c with | ⟨0, _⟩ => rfl | ⟨1, _⟩ => rfl | ⟨2, _⟩ => rfl
  have er : ridx_main_v15 (ix3 b a v) d = ix3 b d v :=
    funext fun c => match c with | ⟨0, _⟩ => rfl | ⟨1, _⟩ => rfl | ⟨2, _⟩ => rfl
  rw [el, er, weight_at]

end Cert.RefAttn

end
-- ==== Proof.Payload.lean ====
/-
  What the kernel's body stores, read at an index of the output block.

  The body handles two batch elements per grid point. For the element `i` of the pair it loads that element's keys and
  values (a [1, 8192, 128] slice each, cast to [8192, 128]), multiplies the query block by the scale, contracts it with
  the keys over `k` (scores [32, 8192]), takes each row's maximum from -∞, exponentiates the differences, sums each row,
  divides, contracts the weights with the values over `d` and stores the [32, 128] result as slice `i` of the output
  block. At (a, v) that is `softmaxDot` of the row of scores `∑ k, (q[a,k] · s) · K[d,k]` and the column `V[d,v]`.
  Both stores' payloads are this one term, of the pair's first and second slices.
-/
import proofs.«411201_j26036091748419_3_alg».proof.Proof.Gen.KernelIdeal.Skeleton
import proofs.«411201_j26036091748419_3_alg».proof.Proof.Softmax
import Idealize.ShloMosaic.Lib.Pipeline.Value
import Idealize.ShloMosaic.Lib.ValueLayout

noncomputable section

namespace Cert.KernelAttn

open Cert.KernelIdeal Cert.KernelIdeal.Gen Idealize.ShloMosaic Idealize.ShloMosaic.ValueIdx
open Cert.Attn

/-! ## Two layout operations of a kept reduced axis, at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two contractions' operand indices -/

theorem qk_lhs_0 (i : S32x8192.Idx) (q : dot_S32x128_S8192x128_S32x8192_1_1_0_0_n_n.contr.Idx) :
    (dot_S32x128_S8192x128_S32x8192_1_1_0_0_n_n.lhsIdx i q 0).val = (i 0).val := by
  unfold DotDims.lhsIdx
  rw [dif_neg (show ¬(0 : Fin S32x128.rank) ∈ dot_S32x128_S8192x128_S32x8192_1_1_0_0_n_n.lhsBatch by decide), dif_pos (show (0 : Fin S32x128.rank) ∈ dot_S32x128_S8192x128_S32x8192_1_1_0_0_n_n.lhsNonContracting by decide)]
  rfl
theorem qk_lhs_1 (i : S32x8192.Idx) (q : dot_S32x128_S8192x128_S32x8192_1_1_0_0_n_n.contr.Idx) :
    (dot_S32x128_S8192x128_S32x8192_1_1_0_0_n_n.lhsIdx i q 1).val = (q ⟨0, by decide⟩).val :=
  dot_S32x128_S8192x128_S32x8192_1_1_0_0_n_n.lhsIdx_val_of_single rfl i q
theorem qk_rhs_0 (i : S32x8192.Idx) (q : dot_S32x128_S8192x128_S32x8192_1_1_0_0_n_n.contr.Idx) :
    (dot_S32x128_S8192x128_S32x8192_1_1_0_0_n_n.rhsIdx i q 0).val = (i 1).val := by
  unfold DotDims.rhsIdx
  rw [dif_neg (show ¬(0 : Fin S8192x128.rank) ∈ dot_S32x128_S8192x128_S32x8192_1_1_0_0_n_n.rhsBatch by decide), dif_pos (show (0 : Fin S8192x128.rank) ∈ dot_S32x128_S8192x128_S32x8192_1_1_0_0_n_n.rhsNonContracting by decide)]
  rfl
theorem qk_rhs_1 (i : S32x8192.Idx) (q : dot_S32x128_S8192x128_S32x8192_1_1_0_0_n_n.contr.Idx) :
    (dot_S32x128_S8192x128_S32x8192_1_1_0_0_n_n.rhsIdx i q 1).val = (q ⟨0, by decide⟩).val :=
  dot_S32x128_S8192x128_S32x8192_1_1_0_0_n_n.rhsIdx_val_of_single rfl i q

theorem av_lhs_0 (i : S32x128.Idx) (q : dot_S32x8192_S8192x128_S32x128_1_0_0_1_n_n.contr.Idx) :
    (dot_S32x8192_S8192x128_S32x128_1_0_0_1_n_n.lhsIdx i q 0).val = (i 0).val := by
  unfold DotDims.lhsIdx
  rw [dif_neg (show ¬(0 : Fin S32x8192.rank) ∈ dot_S32x8192_S8192x128_S32x128_1_0_0_1_n_n.lhsBatch by decide), dif_pos (show (0 : Fin S32x8192.rank) ∈ dot_S32x8192_S8192x128_S32x128_1_0_0_1_n_n.lhsNonContracting by decide)]
  rfl
theorem av_lhs_1 (i : S32x128.Idx) (q : dot_S32x8192_S8192x128_S32x128_1_0_0_1_n_n.contr.Idx) :
    (dot_S32x8192_S8192x128_S32x128_1_0_0_1_n_n.lhsIdx i q 1).val = (q ⟨0, by decide⟩).val :=
  dot_S32x8192_S8192x128_S32x128_1_0_0_1_n_n.lhsIdx_val_of_single rfl i q
theorem av_rhs_0 (i : S32x128.Idx) (q : dot_S32x8192_S8192x128_S32x128_1_0_0_1_n_n.contr.Idx) :
    (dot_S32x8192_S8192x128_S32x128_1_0_0_1_n_n.rhsIdx i q 0).val = (q ⟨0, by decide⟩).val :=
  dot_S32x8192_S8192x128_S32x128_1_0_0_1_n_n.rhsIdx_val_of_single rfl i q
theorem av_rhs_1 (i : S32x128.Idx) (q : dot_S32x8192_S8192x128_S32x128_1_0_0_1_n_n.contr.Idx) :
    (dot_S32x8192_S8192x128_S32x128_1_0_0_1_n_n.rhsIdx i q 1).val = (i 1).val := by
  unfold DotDims.rhsIdx
  rw [dif_neg (show ¬(1 : Fin S8192x128.rank) ∈ dot_S32x8192_S8192x128_S32x128_1_0_0_1_n_n.rhsBatch by decide), dif_pos (show (1 : Fin S8192x128.rank) ∈ dot_S32x8192_S8192x128_S32x128_1_0_0_1_n_n.rhsNonContracting by decide)]
  rfl

/-! ## The operations of the body at an index -/

/-- The scores: the scaled query block contracted with one batch element's keys, at (a, d). -/
theorem qk_at (x0 : FVec Ideal S32x128 .f32) (kb : FVec Ideal S1x8192x128 .f32) (a : Fin 32) (d : Fin 8192) :
    matmul dot_S32x128_S8192x128_S32x8192_1_1_0_0_n_n none (k0_pay2 (F := Ideal) x0)
        (shapeCast S8192x128 kb shapeCasts_S1x8192x128_S8192x128) (constant (F := Ideal) S32x8192 .f32 0x00000000#32) (ix2 a d)
      = ∑ k : Fin 128, (x0 (ix2 a k) * scale) * kb (ix3 (0 : Fin 1) d k) := by
  simp only [matmul]
  rw [Ideal.matmul_constant_zero_apply, ← Equiv.sum_comp (contrEquiv1 dot_S32x128_S8192x128_S32x8192_1_1_0_0_n_n 128 rfl rfl).symm]
  refine Finset.sum_congr rfl fun k _ => ?_
  have hk := contrEquiv1_symm_val dot_S32x128_S8192x128_S32x8192_1_1_0_0_n_n 128 rfl rfl k
  have el : dot_S32x128_S8192x128_S32x8192_1_1_0_0_n_n.lhsIdx (ix2 a d) ((contrEquiv1 dot_S32x128_S8192x128_S32x8192_1_1_0_0_n_n 128 rfl rfl).symm k) = ix2 a k := funext fun c => Fin.ext (by
    match c with
    | ⟨0, _⟩ => exact qk_lhs_0 _ _
    | ⟨1, _⟩ => exact (qk_lhs_1 _ _).trans hk)
  have er : dot_S32x128_S8192x128_S32x8192_1_1_0_0_n_n.rhsIdx (ix2 a d) ((contrEquiv1 dot_S32x128_S8192x128_S32x8192_1_1_0_0_n_n 128 rfl rfl).symm k) = ix2 d k := funext fun c => Fin.ext (by
    match c with
    | ⟨0, _⟩ => exact qk_rhs_0 _ _
    | ⟨1, _⟩ => exact (qk_rhs_1 _ _).trans hk)
  rw [el, er, shapeCast_1ab_ab_apply]
  rfl

/-- The last contraction, cast back to a [1, 32, 128] slice, at (0, a, v). -/
theorem av_at (w : FVec Ideal S32x8192 .f32) (vb : FVec Ideal S1x8192x128 .f32) (a : Fin 32) (v : Fin 128) :
    shapeCast S1x32x128 (matmul dot_S32x8192_S8192x128_S32x128_1_0_0_1_n_n none w
        (shapeCast S8192x128 vb shapeCasts_S1x8192x128_S8192x128) (constant (F := Ideal) S32x128 .f32 0x00000000#32))
        shapeCasts_S32x128_S1x32x128 (ix3 (0 : Fin 1) a v)
      = ∑ d : Fin 8192, w (ix2 a d) * vb (ix3 (0 : Fin 1) d v) := by
  rw [shapeCast_ab_1ab_apply]
  simp only [matmul]
  rw [Ideal.matmul_constant_zero_apply, ← Equiv.sum_comp (contrEquiv1 dot_S32x8192_S8192x128_S32x128_1_0_0_1_n_n 8192 rfl rfl).symm]
  refine Finset.sum_congr rfl fun d _ => ?_
  have hk := contrEquiv1_symm_val dot_S32x8192_S8192x128_S32x128_1_0_0_1_n_n 8192 rfl rfl d
  have el : dot_S32x8192_S8192x128_S32x128_1_0_0_1_n_n.lhsIdx (ix2 a v) ((contrEquiv1 dot_S32x8192_S8192x128_S32x128_1_0_0_1_n_n 8192 rfl rfl).symm d) = ix2 a d := funext fun c => Fin.ext (by
    match c with
    | ⟨0, _⟩ => exact av_lhs_0 _ _
    | ⟨1, _⟩ => exact (av_lhs_1 _ _).trans hk)
  have er : dot_S32x8192_S8192x128_S32x128_1_0_0_1_n_n.rhsIdx (ix2 a v) ((contrEquiv1 dot_S32x8192_S8192x128_S32x128_1_0_0_1_n_n 8192 rfl rfl).symm d) = ix2 d v := funext fun c => Fin.ext (by
    match c with
    | ⟨0, _⟩ => exact (av_rhs_0 _ _).trans hk
    | ⟨1, _⟩ => exact av_rhs_1 _ _)
  rw [el, er, shapeCast_1ab_ab_apply]

/-- A row's maximum from -∞, kept as a column and broadcast back along the row, at (a, d). -/
theorem rowmax_at (sc : FVec Ideal S32x8192 .f32) (a : Fin 32) (d : Fin 8192) :
    broadcastTo S32x8192 (shapeCast S32x1 (multiReduction .maximumf [1] S32 sc 0xFF800000#32 reduces_S32x8192_S32 (.inl rfl) rfl)
        shapeCasts_S32_S32x1) broadcasts_S32x1_S32x8192 (ix2 a d)
      = rowMax (fun d' : Fin 8192 => sc (ix2 a d')) := by
  rw [broadcastTo_a1_ab_apply, shapeCast_a_a1_apply]
  refine (Ideal.multiReduction_maximumf_single sc 0xFF800000#32 reduces_S32x8192_S32 (.inl rfl) rfl (ix1 a)).trans ?_
  have hf : (sc ∘ reduces_S32x8192_S32.lift (ix1 a)) = fun d' : Fin 8192 => sc (ix2 a d') :=
    funext fun d' => congrArg sc (funext fun c => match c with | ⟨0, _⟩ => rfl | ⟨1, _⟩ => rfl)
  rw [hf]
  rfl

/-- A row's sum from zero, kept as a column and broadcast back along the row, at (a, d). -/
theorem rowsum_at (e : FVec Ideal S32x8192 .f32) (a : Fin 32) (d : Fin 8192) :
    broadcastTo S32x8192 (shapeCast S32x1 (multiReduction .add [1] S32 e 0x00000000#32 reduces_S32x8192_S32 (.inl rfl) rfl)
        shapeCasts_S32_S32x1) broadcasts_S32x1_S32x8192 (ix2 a d)
      = ∑ d' : Fin 8192, e (ix2 a d') := by
  rw [broadcastTo_a1_ab_apply, shapeCast_a_a1_apply]
  refine (Ideal.multiReduction_add_single e 0x00000000#32 reduces_S32x8192_S32 (.inl rfl) rfl (ix1 a)).trans ?_
  exact Finset.sum_congr rfl fun d' _ => congrArg e (funext fun c => match c with | ⟨0, _⟩ => rfl | ⟨1, _⟩ => rfl)

/-- The exponential of a score less its row's maximum, at (a, d). -/
theorem exp_at (sc : FVec Ideal S32x8192 .f32) (a : Fin 32) (d : Fin 8192) :
    exp (subf sc (broadcastTo S32x8192 (shapeCast S32x1 (multiReduction .maximumf [1] S32 sc 0xFF800000#32 reduces_S32x8192_S32 (.inl rfl) rfl)
        shapeCasts_S32_S32x1) broadcasts_S32x1_S32x8192)) (ix2 a d)
      = Ideal.exp (sc (ix2 a d) - rowMax (fun d' : Fin 8192 => sc (ix2 a d'))) := by
  show Ideal.exp (sc (ix2 a d) - broadcastTo S32x8192 _ broadcasts_S32x1_S32x8192 (ix2 a d)) = _
  rw [rowmax_at]

/-- The softmax weight at (a, d). -/
theorem weight_at (sc : FVec Ideal S32x8192 .f32) (a : Fin 32) (d : Fin 8192) :
    divf (exp (subf sc (broadcastTo S32x8192 (shapeCast S32x1 (multiReduction .maximumf [1] S32 sc 0xFF800000#32 reduces_S32x8192_S32 (.inl rfl) rfl)
          shapeCasts_S32_S32x1) broadcasts_S32x1_S32x8192)))
        (broadcastTo S32x8192 (shapeCast S32x1 (multiReduction .add [1] S32
          (exp (subf sc (broadcastTo S32x8192 (shapeCast S32x1 (multiReduction .maximumf [1] S32 sc 0xFF800000#32 reduces_S32x8192_S32 (.inl rfl) rfl)
            shapeCasts_S32_S32x1) broadcasts_S32x1_S32x8192))) 0x00000000#32 reduces_S32x8192_S32 (.inl rfl) rfl)
          shapeCasts_S32_S32x1) broadcasts_S32x1_S32x8192) (ix2 a d)
      = Ideal.div (Ideal.exp (sc (ix2 a d) - rowMax (fun d' : Fin 8192 => sc (ix2 a d'))))
          (∑ d' : Fin 8192, Ideal.exp (sc (ix2 a d') - rowMax (fun d'' : Fin 8192 => sc (ix2 a d'')))) := by
  rw [divf_apply, exp_at, rowsum_at]
  exact congrArg (Ideal.div _) (Finset.sum_congr rfl fun d' _ => exp_at sc a d')

/-! ## The two payloads -/

/-- What the body stores for the pair's first element, at (0, a, v). -/
theorem pay_first_at (x0 : FVec Ideal S32x128 .f32) (kb vb : FVec Ideal S1x8192x128 .f32) (a : Fin 32) (v : Fin 128) :
    k0_pay3 (F := Ideal) x0 kb vb (ix3 (0 : Fin 1) a v)
      = softmaxDot (fun d : Fin 8192 => ∑ k : Fin 128, (x0 (ix2 a k) * scale) * kb (ix3 (0 : Fin 1) d k))
          (fun d : Fin 8192 => vb (ix3 (0 : Fin 1) d v)) := by
  unfold k0_pay3
  refine (av_at _ vb a v).trans ?_
  unfold softmaxDot
  refine Finset.sum_congr rfl fun d _ => ?_
  refine congrArg (· * vb (ix3 (0 : Fin 1) d v)) ?_
  refine (weight_at (matmul dot_S32x128_S8192x128_S32x8192_1_1_0_0_n_n none (k0_pay2 (F := Ideal) x0)
    (shapeCast S8192x128 kb shapeCasts_S1x8192x128_S8192x128) (constant (F := Ideal) S32x8192 .f32 0x00000000#32)) a d).trans ?_
  simp only [qk_at]

/-- What it stores for the second is the same term of the pair's second slices. -/
theorem pay_second_eq (x0 : FVec Ideal S32x128 .f32) (kb vb : FVec Ideal S1x8192x128 .f32) :
    k0_pay1 (F := Ideal) (k0_pay4 vb) (k0_pay5 x0 kb) (k0_pay6 x0 kb) = k0_pay3 x0 kb vb := rfl

end Cert.KernelAttn

end
-- ==== Proof.Blocks.lean ====
/-
  From the output block at a grid point to the whole output array.

  Grid point `t` (of 16) handles the batch elements `2t` and `2t + 1`: the key and value windows fetch rows `2t, 2t + 1`
  of their arrays, the query window fetches the whole query array at every point, and the output window writes rows
  `2t, 2t + 1` of the result. The two stores of the body tile the [2, 32, 128] output block, and each stores attention of
  the pair's element it was computed from; so the block is `blockAttn` of the three input blocks, which is the
  restriction to rows `2t, 2t + 1` of `attnFolded` of the argument arrays. The 16 blocks cover the array: row `b` lies in
  the block of point `b / 2`. Hence the array ends holding `attnFolded` of the arguments.
-/
import proofs.«411201_j26036091748419_3_alg».proof.Proof.Gen.KernelIdeal.Value
import proofs.«411201_j26036091748419_3_alg».proof.Proof.Payload

noncomputable section

namespace Cert.KernelAttn

open Cert.KernelIdeal Cert.KernelIdeal.Gen Idealize.ShloMosaic Idealize.ShloMosaic.TcCoe Idealize.SL.Sem
open Idealize.ShloMosaic.ValueIdx
open Idealize.ShloMosaic.Pipeline (Dat)
open Cert.Attn

/-! ## The output block as one function of the input blocks -/

/-- Attention of slice `i` of the key and value blocks against the query block, at row `a`, column `v`. -/
def blockAttn (x0 : FVec Ideal S32x128 .f32) (x1 x2 : FVec Ideal S2x8192x128 .f32) (i : Fin 2) (a : Fin 32) (v : Fin 128) : EReal :=
  softmaxDot (fun d : Fin 8192 => ∑ k : Fin 128, (x0 (ix2 a k) * scale) * x1 (ix3 i d k)) (fun d : Fin 8192 => x2 (ix3 i d v))

/-- The body's rectangles, at an index: the whole query block; slice 0 and slice 1 of a [2, …] block. -/
theorem idx_q (a : Fin 32) (k : Fin 128) : r0_0.idx (ix2 a k) = ix2 a k :=
  funext fun c => Fin.ext (by
    match c with
    | ⟨0, _⟩ => show 0 + 1 * a.val = a.val; omega
    | ⟨1, _⟩ => show 0 + 1 * k.val = k.val; omega)
theorem idx_slice0 (d : Fin 8192) (k : Fin 128) : r0_1.idx (ix3 (0 : Fin 1) d k) = ix3 (0 : Fin 2) d k :=
  funext fun c => Fin.ext (by
    match c with
    | ⟨0, _⟩ => rfl
    | ⟨1, _⟩ => show 0 + 1 * d.val = d.val; omega
    | ⟨2, _⟩ => show 0 + 1 * k.val = k.val; omega)
theorem idx_slice1 (d : Fin 8192) (k : Fin 128) : r0_3.idx (ix3 (0 : Fin 1) d k) = ix3 (1 : Fin 2) d k :=
  funext fun c => Fin.ext (by
    match c with
    | ⟨0, _⟩ => rfl
    | ⟨1, _⟩ => show 0 + 1 * d.val = d.val; omega
    | ⟨2, _⟩ => show 0 + 1 * k.val = k.val; omega)
theorem emb_slice0 (a : Fin 32) (v : Fin 128) : r0_2.emb (ix3 (0 : Fin 1) a v) = ix3 (0 : Fin 2) a v :=
  funext fun c => Fin.ext (by
    match c with
    | ⟨0, _⟩ => rfl
    | ⟨1, _⟩ => show 0 + 1 * a.val = a.val; omega
    | ⟨2, _⟩ => show 0 + 1 * v.val = v.val; omega)
theorem emb_slice1 (a : Fin 32) (v : Fin 128) : r0_4.emb (ix3 (0 : Fin 1) a v) = ix3 (1 : Fin 2) a v :=
  funext fun c => Fin.ext (by
    match c with
    | ⟨0, _⟩ => rfl
    | ⟨1, _⟩ => show 0 + 1 * a.val = a.val; omega
    | ⟨2, _⟩ => show 0 + 1 * v.val = v.val; omega)

/-- The two stores tile the output block, and each piece is `blockAttn` on its slice. -/
theorem out_at (x0 : FVec Ideal S32x128 .f32) (x1 x2 : FVec Ideal S2x8192x128 .f32) (y : S2x32x128.Idx) :
    out0_3 (F := Ideal) x0 x1 x2 y = blockAttn x0 x1 x2 (y 0) (y 1) (y 2) := by
  unfold out0_3
  refine View.canon_apply_of_pieces (Val := Elt Ideal) (e := .f32) (fun y : S2x32x128.Idx => blockAttn x0 x1 x2 (y 0) (y 1) (y 2)) _ ?_ y (cover0_3 _ _ y)
  intro p hp
  rcases List.mem_cons.mp hp with rfl | hp
  · intro x
    obtain ⟨u, a, v, rfl⟩ : ∃ (u : Fin 1) (a : Fin 32) (v : Fin 128), x = ix3 u a v := ⟨x 0, x 1, x 2, eq_ix3 x⟩
    obtain rfl : u = 0 := Subsingleton.elim _ _
    show k0_pay1 (F := Ideal) (k0_pay4 (View.ld x2 r0_3)) (k0_pay5 (View.ld x0 r0_0) (View.ld x1 r0_3))
        (k0_pay6 (View.ld x0 r0_0) (View.ld x1 r0_3)) (ix3 (0 : Fin 1) a v)
      = blockAttn x0 x1 x2 ((r0_4.emb (ix3 (0 : Fin 1) a v)) 0) ((r0_4.emb (ix3 (0 : Fin 1) a v)) 1) ((r0_4.emb (ix3 (0 : Fin 1) a v)) 2)
    rw [emb_slice1, pay_second_eq, pay_first_at]
    unfold blockAttn
    simp only [View.ld, idx_q, idx_slice1]
  · rcases List.mem_singleton.mp hp with rfl
    intro x
    obtain ⟨u, a, v, rfl⟩ : ∃ (u : Fin 1) (a : Fin 32) (v : Fin 128), x = ix3 u a v := ⟨x 0, x 1, x 2, eq_ix3 x⟩
    obtain rfl : u = 0 := Subsingleton.elim _ _
    show k0_pay3 (F := Ideal) (View.ld x0 r0_0) (View.ld x1 r0_1) (View.ld x2 r0_1) (ix3 (0 : Fin 1) a v)
      = blockAttn x0 x1 x2 ((r0_2.emb (ix3 (0 : Fin 1) a v)) 0) ((r0_2.emb (ix3 (0 : Fin 1) a v)) 1) ((r0_2.emb (ix3 (0 : Fin 1) a v)) 2)
    rw [emb_slice0, pay_first_at]
    unfold blockAttn
    simp only [View.ld, idx_q, idx_slice0]

/-- If the query block is the query array and slice `i` of the key and value blocks is row `e i` of their arrays,
    `blockAttn` at (i, a, v) is `attnFolded` of the arrays at (e i, a, v). -/
theorem block_eq (Q : FVec Ideal S32x128 .f32) (K Vv : FVec Ideal S32x8192x128 .f32)
    (x0 : FVec Ideal S32x128 .f32) (x1 x2 : FVec Ideal S2x8192x128 .f32) (e : Fin 2 → Fin 32)
    (h0 : ∀ (a : Fin 32) (k : Fin 128), x0 (ix2 a k) = Q (ix2 a k))
    (h1 : ∀ (i : Fin 2) (d : Fin 8192) (k : Fin 128), x1 (ix3 i d k) = K (ix3 (e i) d k))
    (h2 : ∀ (i : Fin 2) (d : Fin 8192) (v : Fin 128), x2 (ix3 i d v) = Vv (ix3 (e i) d v))
    (i : Fin 2) (a : Fin 32) (v : Fin 128) :
    blockAttn x0 x1 x2 i a v = attnFolded Q K Vv (ix3 (e i) a v) := by
  unfold blockAttn attnFolded scoreBefore
  simp only [h0, h1, h2]

/-! ## The windows' blocks, read off their arrays -/

variable (m : (ℓ : Loc nD τ sig) → Buf (Elt Ideal) ℓ) (ρ : Dev nD → PrngReg)

/-- The argument arrays as the region finds them, and the three input blocks at a point, at their literal types. -/
abbrev qarr (c : Dev nD) : FVec Ideal S32x128 .f32 := V m c main_arg0
abbrev karr (c : Dev nD) : FVec Ideal S32x8192x128 .f32 := V m c main_arg1
abbrev varr (c : Dev nD) : FVec Ideal S32x8192x128 .f32 := V m c main_arg2
abbrev qblk (c : Dev nD) (t : Fin cfg0.N) : FVec Ideal S32x128 .f32 := iblk m c 0 t
abbrev kblk (c : Dev nD) (t : Fin cfg0.N) : FVec Ideal S2x8192x128 .f32 := iblk m c 1 t
abbrev vblk (c : Dev nD) (t : Fin cfg0.N) : FVec Ideal S2x8192x128 .f32 := iblk m c 2 t

/-- The printed index maps, decided over the 16 points: the query window stays at block 0; the key, value and output
    windows are at block `t` on the batch axis and block 0 on the others. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch row that slice `i` of point `t`'s blocks is. -/
def row (t : Fin cfg0.N) (i : Fin 2) : Fin 32 :=
  ⟨2 * t.val + i.val, by have h : t.val < 16 := lt_of_lt_of_eq t.isLt N_0; have := i.isLt; omega⟩

theorem qblk_at (c : Dev nD) (t : Fin cfg0.N) (a : Fin 32) (k : Fin 128) : qblk m c t (ix2 a k) = qarr m c (ix2 a k) := by
  show V m c main_arg0 (((cfg0.win 0).blk t).view.emb (ix2 a k)) = V m c main_arg0 (ix2 a k)
  obtain ⟨e0, e1, -⟩ := idx_facts t
  have h : ((cfg0.win 0).blk t).view.emb (ix2 a k) = ix2 a k := by
    funext ax; apply Fin.ext
    match ax with
    | ⟨0, _⟩ => show win0_0.index t (0 : Fin 2) * 32 + 1 * a.val = a.val; omega
    | ⟨1, _⟩ => show win0_0.index t (1 : Fin 2) * 128 + 1 * k.val = k.val; omega
  rw [h]

theorem kblk_at (c : Dev nD) (t : Fin cfg0.N) (i : Fin 2) (d : Fin 8192) (k : Fin 128) :
    kblk m c t (ix3 i d k) = karr m c (ix3 (row t i) d k) := by
  show V m c main_arg1 (((cfg0.win 1).blk t).view.emb (ix3 i d k)) = V m c main_arg1 (ix3 (row t i) d k)
  obtain ⟨-, -, e0, e1, e2, -⟩ := idx_facts t
  have h : ((cfg0.win 1).blk t).view.emb (ix3 i d k) = ix3 (row t i) d k := by
    funext ax; apply Fin.ext
    match ax with
    | ⟨0, _⟩ => show win0_1.index t (0 : Fin 3) * 2 + 1 * i.val = 2 * t.val + i.val; omega
    | ⟨1, _⟩ => show win0_1.index t (1 : Fin 3) * 8192 + 1 * d.val = d.val; omega
    | ⟨2, _⟩ => show win0_1.index t (2 : Fin 3) * 128 + 1 * k.val = k.val; omega
  rw [h]

theorem vblk_at (c : Dev nD) (t : Fin cfg0.N) (i : Fin 2) (d : Fin 8192) (v : Fin 128) :
    vblk m c t (ix3 i d v) = varr m c (ix3 (row t i) d v) := by
  show V m c main_arg2 (((cfg0.win 2).blk t).view.emb (ix3 i d v)) = V m c main_arg2 (ix3 (row t i) d v)
  obtain ⟨-, -, -, -, -, e0, e1, e2, -⟩ := idx_facts t
  have h : ((cfg0.win 2).blk t).view.emb (ix3 i d v) = ix3 (row t i) d v := by
    funext ax; apply Fin.ext
    match ax with
    | ⟨0, _⟩ => show win0_2.index t (0 : Fin 3) * 2 + 1 * i.val = 2 * t.val + i.val; omega
    | ⟨1, _⟩ => show win0_2.index t (1 : Fin 3) * 8192 + 1 * d.val = d.val; omega
    | ⟨2, _⟩ => show win0_2.index t (2 : Fin 3) * 128 + 1 * v.val = v.val; omega
  rw [h]

/-! ## What a point writes back, the cover, the final array -/

/-- WHAT POINT `t` WRITES BACK is block `t` of `attnFolded` of the argument arrays. -/
theorem flushed_eq (c : Dev nD) (t : Fin cfg0.N) :
    (dats m 0 c).flushed 3 t
      = ((cfg0.win 3).blk t).view.read (Elt Ideal) (attnFolded (qarr m c) (karr m c) (varr m c)) := by
  rw [Value.flushed3]
  funext y
  show out0_3 (F := Ideal) (qblk m c t) (kblk m c t) (vblk m c t) y
    = attnFolded (qarr m c) (karr m c) (varr m c) (((cfg0.win 3).blk t).view.emb y)
  refine (out_at (qblk m c t) (kblk m c t) (vblk m c t) y).trans ?_
  refine (block_eq (qarr m c) (karr m c) (varr m c) (qblk m c t) (kblk m c t) (vblk m c t) (row t)
    (qblk_at m c t) (kblk_at m c t) (vblk_at m c t) (y 0) (y 1) (y 2)).trans ?_
  refine congrArg (attnFolded (qarr m c) (karr m c) (varr m c)) ?_
  obtain ⟨-, -, -, -, -, -, -, -, e0, e1, e2⟩ := idx_facts t
  funext ax; apply Fin.ext
  match ax with
  | ⟨0, _⟩ => show 2 * t.val + (y 0).val = win0_3.index t (0 : Fin 3) * 2 + 1 * (y 0).val; omega
  | ⟨1, _⟩ => show (y 1).val = win0_3.index t (1 : Fin 3) * 32 + 1 * (y 1).val; omega
  | ⟨2, _⟩ => show (y 2).val = win0_3.index t (2 : Fin 3) * 128 + 1 * (y 2).val; omega

/-- An index of the output array is in point `t`'s block iff each coordinate is in the block's range on its axis. -/
theorem mem_blk (t : Fin cfg0.N) (i : S32x32x128.Idx) :
    i ∈ ((cfg0.win 3).blk t).view.set ↔ ∀ a : Fin 3, win0_3.index t a * S2x32x128.size a ≤ (i a).val ∧ (i a).val < win0_3.index t a * S2x32x128.size a + S2x32x128.size a := by
  show i ∈ ((View.whole main_v0).slice (win0_3.rect t)).set ↔ _
  rw [View.set_slice_whole, Rect.mem_set_unit]
  exact Iff.rfl

/-- Every index of the output array is in some point's block: batch row `b` in the block of point `b / 2`. -/
theorem cover (i : S32x32x128.Idx) :
    ∃ t : Fin cfg0.N, (cfg0.win 3).flush t = true ∧ i ∈ ((cfg0.win 3).blk t).view.set := by
  have hi0 : (i 0).val < 32 := (i 0).isLt
  have hi1 : (i 1).val < 32 := (i 1).isLt
  have hi2 : (i 2).val < 128 := (i 2).isLt
  have hN : (i 0).val / 2 < cfg0.N := lt_of_lt_of_eq (by omega : (i 0).val / 2 < 16) N_0.symm
  refine ⟨⟨(i 0).val / 2, hN⟩, flush0_3 _, ?_⟩
  rw [mem_blk]
  obtain ⟨-, -, -, -, -, -, -, -, e0, e1, e2⟩ := idx_facts ⟨(i 0).val / 2, hN⟩
  have e0' : win0_3.index ⟨(i 0).val / 2, hN⟩ (0 : Fin 3) = (i 0).val / 2 := e0
  intro a
  match a with
  | ⟨0, _⟩ => show win0_3.index ⟨(i 0).val / 2, hN⟩ (0 : Fin 3) * 2 ≤ (i 0).val ∧ (i 0).val < win0_3.index ⟨(i 0).val / 2, hN⟩ (0 : Fin 3) * 2 + 2; omega
  | ⟨1, _⟩ => show win0_3.index ⟨(i 0).val / 2, hN⟩ (1 : Fin 3) * 32 ≤ (i 1).val ∧ (i 1).val < win0_3.index ⟨(i 0).val / 2, hN⟩ (1 : Fin 3) * 32 + 32; omega
  | ⟨2, _⟩ => show win0_3.index ⟨(i 0).val / 2, hN⟩ (2 : Fin 3) * 128 ≤ (i 2).val ∧ (i 2).val < win0_3.index ⟨(i 0).val / 2, hN⟩ (2 : Fin 3) * 128 + 128; omega

/-- THE OUTPUT ARRAY after the run is `attnFolded` of the argument arrays. -/
theorem final (c : Dev nD) :
    (dats m 0 c).arrAt 3 cfg0.N = attnFolded (qarr m c) (karr m c) (varr m c) :=
  (dats m 0 c).arrAt_eq_of_cover 3 _ (fun t _ => flushed_eq m c t) cover

/-- The kernel's run: every weakly fair execution terminates with the result array at `attnFolded` of the arguments as
    launched, and the arguments unchanged. -/
theorem run : θ_run defs (onTc (τ := τ) (main (F := Ideal))) ⟨m, fun _ => 0, ρ⟩ fun r => ∀ c : Dev nD,
      r.2.mem ((c : Thread nD τ).loc main_v0)
        = attnFolded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelAttn

end
-- ==== Proof.lean ====
/-
  Scaled dot-product attention, a row softmax over 8192 key positions for 32 batch elements, computed two batch elements
  per grid point, against its reference: equal over the extended reals when the inputs are finite.

  Both programs compute, at (b, a, v), `∑ d, softmax_d (score b a ·) d · V[b, d, v]` with the same scale word, the
  maximum taken from -∞ and the sum from zero (Proof/Softmax.lean). The kernel folds the scale into the query before
  the first contraction, the reference multiplies the finished inner product by it; the two scores agree because every
  factor is a real number, which is where the precondition is used (Proof/Finite.lean). The kernel's result array is
  read off its run block by block (Proof/Payload.lean, Proof/Blocks.lean), the reference's off its run one operation at
  a time (Proof/RefValue.lean). The three frames are the programs' runs with the result dropped, and no operation was
  rewritten between the kernel and its idealization.
-/
import proofs.«411201_j26036091748419_3_alg».proof.Defs
import proofs.«411201_j26036091748419_3_alg».proof.Proof.Gen.Kernel
import proofs.«411201_j26036091748419_3_alg».proof.Proof.Gen.Kernel.Frame
import proofs.«411201_j26036091748419_3_alg».proof.Proof.Gen.KernelIdeal
import proofs.«411201_j26036091748419_3_alg».proof.Proof.Gen.KernelIdeal.Frame
import proofs.«411201_j26036091748419_3_alg».proof.Proof.Gen.KernelIdeal.Value
import proofs.«411201_j26036091748419_3_alg».proof.Proof.Gen.ReferenceIdeal
import proofs.«411201_j26036091748419_3_alg».proof.Proof.Gen.Pre_finite_inputs
import proofs.«411201_j26036091748419_3_alg».proof.Proof.Gen.ReferenceIdeal.Run
import proofs.«411201_j26036091748419_3_alg».proof.Proof.Gen.ReferenceIdeal.Read
import proofs.«411201_j26036091748419_3_alg».proof.Proof.Softmax
import proofs.«411201_j26036091748419_3_alg».proof.Proof.Finite
import proofs.«411201_j26036091748419_3_alg».proof.Proof.RefValue
import proofs.«411201_j26036091748419_3_alg».proof.Proof.Blocks

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result array at attention of the arguments:
    the kernel's with the scale folded into the query, which on finite inputs is the same function. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelAttn.run m ρ)
    obtain ⟨hq, hk, -⟩ := Cert.FiniteInputs.of_pre _ _ _ (hpre c)
    exact Cert.Attn.attnFolded_eq _ _ _ hq hk
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.RefAttn.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
